-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x4096 .f32) (main_arg5 : FVec F S8x4096x1024 .f32) (main_arg6 : FVec F S8x1x1024 .f32) (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  let main_v19 : FVec F S8x1x4096 .f32 := Host.absf main_arg4
  let main_cst_6 : FVec F S_ .f32 := constant S_ .f32 0x7F800000#32
  let main_v20 : FVec F S8x1x4096 .f32 := broadcastInDim S8x1x4096 ![] bcast_S_S8x1x4096 main_cst_6
  let main_v21 : IVec S8x1x4096 1 := cmpf .olt main_v19 main_v20
  let main_c_7 : IVec S_ 1 := constantI S_ 1 1#1
  let main_v22 : IVec S_ 1 := (fun x v => Host.reduce IntOp.andi x v reducesTo_S8x1x4096_S_d0_1_2 h_S_) main_v21 main_c_7
  let main_v23 : IVec S_ 1 := andi main_v18 main_v22
  let main_v24 : FVec F S8x4096x1024 .f32 := Host.absf main_arg5
  let main_cst_8 : FVec F S_ .f32 := constant S_ .f32 0x7F800000#32
  let main_v25 : FVec F S8x4096x1024 .f32 := broadcastInDim S8x4096x1024 ![] bcast_S_S8x4096x1024 main_cst_8
  let main_v26 : IVec S8x4096x1024 1 := cmpf .olt main_v24 main_v25
  let main_c_9 : IVec S_ 1 := constantI S_ 1 1#1
  let main_v27 : IVec S_ 1 := (fun x v => Host.reduce IntOp.andi x v reducesTo_S8x4096x1024_S_d0_1_2 h_S_) main_v26 main_c_9
  let main_v28 : IVec S_ 1 := andi main_v23 main_v27
  let main_v29 : FVec F S8x1x1024 .f32 := Host.absf main_arg6
  let main_cst_10 : FVec F S_ .f32 := constant S_ .f32 0x7F800000#32
  let main_v30 : FVec F S8x1x1024 .f32 := broadcastInDim S8x1x1024 ![] bcast_S_S8x1x1024 main_cst_10
  let main_v31 : IVec S8x1x1024 1 := cmpf .olt main_v29 main_v30
  let main_c_11 : IVec S_ 1 := constantI S_ 1 1#1
  let main_v32 : IVec S_ 1 := (fun x v => Host.reduce IntOp.andi x v reducesTo_S8x1x1024_S_d0_1_2 h_S_) main_v31 main_c_11
  let main_v33 : IVec S_ 1 := andi main_v28 main_v32
  main_v33

def fn {F : FTy → Type} [FloatOps F] (main_arg0 : FVec F S8x2048x1024 .f32) (main_arg1 : FVec F S8x1024x4096 .f32) (main_arg2 : FVec F S8x1x4096 .f32) (main_arg3 : FVec F S8x1024x4096 .f32) (main_arg4 : FVec F S8x1x4096 .f32) (main_arg5 : FVec F S8x4096x1024 .f32) (main_arg6 : FVec F S8x1x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x1024x4096 .f32 := Host.absf main_arg3
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_arg4 main_arg5 main_arg6 main_v13 main_v16
-- ==== Kernel.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x1024x4096, .f32⟩
  | .hbm, ⟨4, _⟩ => ⟨S8x1x4096, .f32⟩
  | .hbm, ⟨5, _⟩ => ⟨S8x4096x1024, .f32⟩
  | .hbm, ⟨6, _⟩ => ⟨S8x1x1024, .f32⟩
  | .hbm, ⟨7, _⟩ => ⟨S8x2048x1024, .bf16⟩
  | .hbm, ⟨8, _⟩ => ⟨S8x1024x4096, .bf16⟩
  | .hbm, ⟨9, _⟩ => ⟨S8x1024x4096, .bf16⟩
  | .hbm, ⟨10, _⟩ => ⟨S8x4096x1024, .bf16⟩
  | .hbm, ⟨11, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_24 : BitVec 32 := 0#32
  let v33 : BitVec 1 := Scalar.cmpi .ne v32 c0_i32_24
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x4096.size a
  hwx0_3 : ∀ i : grid0.Coords, EltTy.bits .bf16 = 32 ∨ (Rect.block (s := S8x1024x4096) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x4096.size a
  hwx0_4 : ∀ i : grid0.Coords, EltTy.bits .f32 = 32 ∨ (Rect.block (s := S8x1x4096) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x4096x1024.size a
  hwx0_5 : ∀ i : grid0.Coords, EltTy.bits .bf16 = 32 ∨ (Rect.block (s := S8x4096x1024) S1x1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x1024.size a
  hwx0_6 : ∀ i : grid0.Coords, EltTy.bits .f32 = 32 ∨ (Rect.block (s := S8x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x2048x1024.size a
  hwx0_7 : ∀ i : grid0.Coords, EltTy.bits .f32 = 32 ∨ (Rect.block (s := S8x2048x1024) S1x512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S8x2048x4096 : Shape := ⟨3, ![8, 2048, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x1024x4096, .f32⟩
  | .hbm, ⟨4, _⟩ => ⟨S8x1x4096, .f32⟩
  | .hbm, ⟨5, _⟩ => ⟨S8x4096x1024, .f32⟩
  | .hbm, ⟨6, _⟩ => ⟨S8x1x1024, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x4096, .f32⟩
  | .hbm, ⟨17, _⟩ => ⟨S8x2048x4096, .f32⟩
  | .hbm, ⟨18, _⟩ => ⟨S_, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]

class Facts₀ : Prop where
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Pieces.lean ====
/-
  What each of the body's three control cases leaves behind, as the body's own arithmetic.

  The accumulator is a scratch tile carried from point to point. At the first hidden block the body zeroes it, reads the
  zeros back and stores `0 + partial`; at a later block it stores `previous + partial`; at the last block it also loads
  what it has just stored, adds the output bias and stores that into the output tile. Every load and store here is of a
  whole buffer at zero offsets, so a load reads exactly what the last store left.
-/
import proofs.«159279_j4887672783477_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Swiglu.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First hidden block: the accumulator ends at the step applied to the zero tile. -/
theorem scratch_A (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x512x1024 .f32) (harg10 : arg10.IsWhole) (arg11 : Memref sig .tc .vmem S512x1024 .f32) (harg11 : arg11.IsWhole) (hc0 : cond0_0 i) (hc1 : ¬cond0_1 i) (x0 : Vec F S1x512x1024 .bf16) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay1 (k0_pay4 x0 x1 x3 x5 x2 x4 k0_pay3) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S512x1024) hz2]
  simp only [View.readAt_eq_ld, harg3.read_unread, harg4.read_unread, harg5.read_unread, harg6.read_unread, harg7.read_unread, harg8.read_unread, harg9.read_unread, harg11.read_unread,
    View.readCov_unit_zero (S := S512x1024) _ hz2, View.ld_unit_zero (S := S512x1024) hz2, View.ld_unit_zero (S := S1x512x1024) hz3, View.ld_unit_zero (S := S1x1024x1024) hz3, View.ld_unit_zero (S := S1x1x1024) hz3]

/-- A middle hidden block: the accumulator ends at the step applied to what the point before left. -/
theorem scratch_B (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x512x1024 .f32) (harg10 : arg10.IsWhole) (arg11 : Memref sig .tc .vmem S512x1024 .f32) (harg11 : arg11.IsWhole) (hc0 : ¬cond0_0 i) (hc1 : ¬cond0_1 i) (x0 : Vec F S1x512x1024 .bf16) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32) (xs0 : Vec F S512x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay1 (k0_pay4 x0 x1 x3 x5 x2 x4 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg11.read_unread,
    View.readCov_unit_zero (S := S512x1024) _ hz2, View.ld_unit_zero (S := S512x1024) hz2, View.ld_unit_zero (S := S1x512x1024) hz3, View.ld_unit_zero (S := S1x1024x1024) hz3, View.ld_unit_zero (S := S1x1x1024) hz3]

/-- The last hidden block: the accumulator, as at a middle block. -/
theorem scratch_C (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x512x1024 .f32) (harg10 : arg10.IsWhole) (arg11 : Memref sig .tc .vmem S512x1024 .f32) (harg11 : arg11.IsWhole) (hc0 : ¬cond0_0 i) (hc1 : cond0_1 i) (x0 : Vec F S1x512x1024 .bf16) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32) (xs0 : Vec F S512x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay1 (k0_pay4 x0 x1 x3 x5 x2 x4 xs0) := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg11.read_unread,
    View.readCov_unit_zero (S := S512x1024) _ hz2, View.ld_unit_zero (S := S512x1024) hz2, View.ld_unit_zero (S := S1x512x1024) hz3, View.ld_unit_zero (S := S1x1024x1024) hz3, View.ld_unit_zero (S := S1x1x1024) hz3]

/-- The last hidden block: the output tile is the final accumulator plus the output bias row. -/
theorem out_C (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x512x1024 .f32) (harg10 : arg10.IsWhole) (arg11 : Memref sig .tc .vmem S512x1024 .f32) (harg11 : arg11.IsWhole) (hc0 : ¬cond0_0 i) (hc1 : cond0_1 i) (x0 : Vec F S1x512x1024 .bf16) (x1 : Vec F S1x1024x1024 .bf16) (x2 : Vec F S1x1x1024 .f32) (x3 : Vec F S1x1024x1024 .bf16) (x4 : Vec F S1x1x1024 .f32) (x5 : Vec F S1x1024x1024 .bf16) (x6 : Vec F S1x1x1024 .f32) (xs0 : Vec F S512x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay2 (k0_pay1 (k0_pay4 x0 x1 x3 x5 x2 x4 xs0)) x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg11.read_unread,
    View.readCov_unit_zero (S := S512x1024) _ hz2, View.ld_unit_zero (S := S512x1024) hz2, View.ld_unit_zero (S := S1x512x1024) hz3, View.ld_unit_zero (S := S1x1024x1024) hz3, View.ld_unit_zero (S := S1x1x1024) hz3]

end Cert.Swiglu.Pieces
end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelStep.lean ====
/-
  One grid point's arithmetic, read at an index of the accumulator tile.

  At a point the body holds a tile of 512 tokens (`xb`), one block of 1024 hidden units of each weight (`wfcb`, `wgb`:
  1024 × 1024 columns; `wprojb`: 1024 rows × 1024 outputs) and the two bias rows of that block. It leaves in the
  accumulator, at `(r, o)`, what was there plus the block's partial sum
  `Σ_j h(r,j) · (g(r,j) · σ(g(r,j))) · wprojb(j,o)`, where `h` and `g` are the tile's rows against the block's columns plus
  bias. Narrowing to the 16-bit format is the identity on the extended reals, and a product into a zero accumulator is
  the plain sum.
-/
import proofs.«159279_j4887672783477_1_alg».proof.Proof.Gen.KernelIdeal.Skeleton
import proofs.«159279_j4887672783477_1_alg».proof.Proof.LibRowOps
import Idealize.ShloMosaic.Lib.IdealHost

set_option maxRecDepth 16384

noncomputable section

open Idealize.ShloMosaic Idealize.ShloMosaic.TcCoe Idealize.SL.Sem
open Idealize.ShloMosaic.Pipeline (Dat)

namespace Cert.Swiglu.Body

open Cert.KernelIdeal Cert.KernelIdeal.Gen Idealize.ShloMosaic.ValueIdx

variable (xb : FVec Ideal S1x512x1024 .bf16) (wfcb wgb wprojb : FVec Ideal S1x1024x1024 .bf16)
  (bfcb bgb : FVec Ideal S1x1x1024 .f32)

/-- A block pre-activation: token row `r` against column `j` of the weight block, plus the bias entry. -/
def bpre (w : FVec Ideal S1x1024x1024 .bf16) (b : FVec Ideal S1x1x1024 .f32) (r : Fin 512) (j : Fin 1024) : EReal :=
  (∑ i : Fin 1024, xb (ix3 (0 : Fin 1) r i) * w (ix3 (0 : Fin 1) i j)) + b (ix3 (0 : Fin 1) (0 : Fin 1) j)

/-- The block's gated hidden value. -/
def bhidden (r : Fin 512) (j : Fin 1024) : EReal :=
  bpre xb wfcb bfcb r j * (bpre xb wgb bgb r j * Ideal.logistic (bpre xb wgb bgb r j))

/-- The block's partial sum for accumulator entry `(r, o)`. -/
def bpart (r : Fin 512) (o : Fin 1024) : EReal :=
  ∑ j : Fin 1024, bhidden xb wfcb wgb bfcb bgb r j * wprojb (ix3 (0 : Fin 1) j o)

/-- The logistic of a vector, at an index. -/
theorem logistic_apply {s : Shape} {φ : FTy} (a : FVec Ideal s φ) (i : s.Idx) : logistic a i = Ideal.logistic (a i) := rfl

/-- A tile product into the zero accumulator, at `(p, c)`. -/
theorem mm_apply {φ₁ φ₂ : FTy} (l : FVec Ideal S512x1024 φ₁) (r : FVec Ideal S1024x1024 φ₂) (p : Fin 512) (c : Fin 1024) :
    matmul dot_S512x1024_S1024x1024_S512x1024_1_0_0_1_n_n none l r (constant S512x1024 .f32 0x00000000#32) (ix2 p c)
      = ∑ k : Fin 1024, l (ix2 p k) * r (ix2 k c) :=
  Cert.RowOps.matmul_apply Facts₀.dot_S512x1024_S1024x1024_S512x1024_1_0_0_1_n_n_wf none l r p c

/-- A tile product plus a bias row spread over the tile, at `(r, j)`: the block pre-activation. -/
theorem pre_apply (w : FVec Ideal S1x1024x1024 .bf16) (b : FVec Ideal S1x1x1024 .f32) (r : Fin 512) (j : Fin 1024) :
    addf (matmul dot_S512x1024_S1024x1024_S512x1024_1_0_0_1_n_n none
          (shapeCast S512x1024 xb Facts₀.shapeCasts_S1x512x1024_S512x1024)
          (shapeCast S1024x1024 w Facts₀.shapeCasts_S1x1024x1024_S1024x1024) (constant S512x1024 .f32 0x00000000#32))
        (broadcastTo S512x1024 (shapeCast S1x1024 b Facts₀.shapeCasts_S1x1x1024_S1x1024) Facts₀.broadcasts_S1x1024_S512x1024)
        (ix2 r j)
      = bpre xb w b r j := by
  rw [addf_apply, mm_apply, broadcastTo_1b_ab_apply, shapeCast_1ab_ab_apply]
  unfold bpre
  simp only [shapeCast_1ab_ab_apply]

/-- The accumulation step at `(r, o)`: what was there plus the block's partial sum. -/
theorem step_apply (acc : FVec Ideal S512x1024 .f32) (r : Fin 512) (o : Fin 1024) :
    k0_pay1 (k0_pay4 xb wfcb wgb wprojb bfcb bgb acc) (ix2 r o)
      = acc (ix2 r o) + bpart xb wfcb wgb wprojb bfcb bgb r o := by
  unfold k0_pay1 k0_pay4
  rw [shapeCast_self]
  refine (addf_apply _ _ _).trans ?_
  refine congrArg (acc (ix2 r o) + ·) ?_
  refine (mm_apply _ _ r o).trans ?_
  unfold bpart bhidden
  refine Finset.sum_congr rfl fun j _ => ?_
  rw [shapeCast_1ab_ab_apply, truncf_apply, mulf_apply, mulf_apply, logistic_apply, pre_apply, pre_apply]

/-- The reset value: the zero tile. -/
theorem zero_apply (i : S512x1024.Idx) : (k0_pay3 (F := Ideal)) i = 0 := by
  unfold k0_pay3
  rw [shapeCast_self]
  exact Ideal.ofBits_zero_f32

/-- The last point's store at `(u, r, o)`: the accumulator entry plus the output bias. -/
theorem store_apply (acc : FVec Ideal S512x1024 .f32) (bprojb : FVec Ideal S1x1x1024 .f32) (u : Fin 1) (r : Fin 512) (o : Fin 1024) :
    k0_pay2 acc bprojb (ix3 u r o) = acc (ix2 r o) + bprojb (ix3 (0 : Fin 1) (0 : Fin 1) o) := by
  unfold k0_pay2
  rw [shapeCast_ab_1ab_apply, addf_apply, broadcastTo_1b_ab_apply, shapeCast_1ab_ab_apply]

end Cert.Swiglu.Body
end
-- ==== Proof.KernelAcc.lean ====
/-
  The accumulator after each grid point.

  The grid runs the four hidden blocks of one (expert, token tile) pair at four consecutive points `4q, …, 4q + 3`. After
  point `4q + j` the carried accumulator holds, at every entry, zero plus the partial sums of points `4q, …, 4q + j` in that
  order: the first point stores `0 + partial`, each later one adds its own partial to what the point before left.
-/
import proofs.«159279_j4887672783477_1_alg».proof.Proof.Gen.KernelIdeal.Value
import proofs.«159279_j4887672783477_1_alg».proof.Proof.Pieces
import proofs.«159279_j4887672783477_1_alg».proof.Proof.KernelStep

set_option maxRecDepth 16384

noncomputable section

open Idealize.ShloMosaic Idealize.ShloMosaic.TcCoe Idealize.SL.Sem
open Idealize.ShloMosaic.Pipeline (Dat)

namespace Cert.Swiglu.Acc

open Cert.KernelIdeal Cert.KernelIdeal.Gen Cert.KernelIdeal.Value Idealize.ShloMosaic.ValueIdx

variable (m : (ℓ : Loc nD τ sig) → Buf (Elt Ideal) ℓ)

/-- Point `n`'s partial sum at an accumulator entry: the block partial of the blocks staged at that point (zero for a
    number past the grid, which nothing reads). -/
def part (c : Dev nD) (n : ℕ) (i : S512x1024.Idx) : EReal :=
  if h : n < cfg0.N then
    Body.bpart (iblk m c 0 ⟨n, h⟩) (iblk m c 1 ⟨n, h⟩) (iblk m c 3 ⟨n, h⟩) (iblk m c 5 ⟨n, h⟩) (iblk m c 2 ⟨n, h⟩) (iblk m c 4 ⟨n, h⟩) (i 0) (i 1)
  else 0

/-- At the first point of a run the accumulator is reset: it ends at zero plus that point's partial. -/
theorem reset_apply (c : Dev nD) (n : ℕ) (h : n < cfg0.N) (h0 : n % 4 = 0) (i : S512x1024.Idx) :
    scAt0_0 m c n h (VS0_0.read (Elt Ideal) VS0_0.junk) i = 0 + part m c n i := by
  obtain ⟨r, o, rfl⟩ : ∃ (r : Fin 512) (o : Fin 1024), i = ix2 r o := ⟨i 0, i 1, eq_ix2 i⟩
  have h1 : ¬n % 4 = 3 := by omega
  unfold scAt0_0
  rw [dif_pos h0, dif_neg h1, Pieces.scratch_A]
  refine (Body.step_apply _ _ _ _ _ _ _ r o).trans ?_
  rw [Body.zero_apply]
  unfold part
  rw [dif_pos h]

/-- At a later point of a run the accumulator gains that point's partial. -/
theorem step_point (c : Dev nD) (n : ℕ) (h : n < cfg0.N) (h0 : ¬n % 4 = 0) (acc : Vec Ideal S512x1024 .f32) (i : S512x1024.Idx) :
    scAt0_0 m c n h acc i = acc i + part m c n i := by
  obtain ⟨r, o, rfl⟩ : ∃ (r : Fin 512) (o : Fin 1024), i = ix2 r o := ⟨i 0, i 1, eq_ix2 i⟩
  unfold scAt0_0
  by_cases h1 : n % 4 = 3
  · rw [dif_neg h0, dif_pos h1, Pieces.scratch_C]
    refine (Body.step_apply _ _ _ _ _ _ _ r o).trans ?_
    unfold part
    rw [dif_pos h]
  · rw [dif_neg h0, dif_neg h1, Pieces.scratch_B]
    refine (Body.step_apply _ _ _ _ _ _ _ r o).trans ?_
    unfold part
    rw [dif_pos h]

/-- The accumulator after point `t`: zero plus the partials of its run's points up to `t`, in order. -/
theorem acc_eq (c : Dev nD) (t : Fin cfg0.N) (i : S512x1024.Idx) :
    (outsAt0 m c t.val t.isLt).2 i = 0 + ∑ s ∈ Finset.range (t.val % 4 + 1), part m c (4 * (t.val / 4) + s) i := by
  rw [soutsAt0_0_eq m c t]
  exact Pipeline.accAt_add_apply (N := cfg0.N) (fun n h => scAt0_0 m c n h (VS0_0.read (Elt Ideal) VS0_0.junk)) (scAt0_0 m c)
    (fun _ => (0 : EReal)) (part m c) (4 * (t.val / 4)) 3
    (fun h i => reset_apply m c _ h (by omega) i)
    (fun n h acc i hb he => step_point m c n h (by omega) acc i)
    (t.val % 4) (by omega) _ i

end Cert.Swiglu.Acc
end
-- ==== Proof.Spec.lean ====
/-
  The mathematics of the gated feed-forward layer, stated once over whole arrays.

  For expert `e`, token `t` and hidden unit `k` the two pre-activations are the row `x[e,t,·]` against column `k` of a
  weight plus that column's bias; the hidden value is `h · (g · σ(g))` with `σ` the logistic function; and output
  `(e,t,o)` is the sum over all 4096 hidden units of the hidden value times `w_proj[e,k,o]`, plus the output bias.

  A sum over the 4096 hidden units is the sum, over the four blocks of 1024, of each block's sum: addition on the
  extended reals is commutative and associative, which is all this regrouping uses.
-/
import Idealize.ShloMosaic.PureOps.Ideal.Laws
import Idealize.ShloMosaic.Lib.ValueIdx
import Idealize.ShloMosaic.Lib.IdealHost

noncomputable section

namespace Cert.Swiglu

open Idealize.ShloMosaic Idealize.ShloMosaic.ValueIdx

/-- Index `s·1024 + j` of hidden block `s % 4`. -/
def hid (s : ℕ) (j : Fin 1024) : Fin 4096 := ⟨(s % 4) * 1024 + j.val, by have := j.isLt; have := Nat.mod_lt s (show 0 < 4 by norm_num); omega⟩

/-- Row `r` of token tile `q % 4`. -/
def tok (q : ℕ) (r : Fin 512) : Fin 2048 := ⟨(q % 4) * 512 + r.val, by have := r.isLt; have := Nat.mod_lt q (show 0 < 4 by norm_num); omega⟩

variable (x : (⟨3, ![8, 2048, 1024]⟩ : Shape).Idx → EReal)
  (wfc : (⟨3, ![8, 1024, 4096]⟩ : Shape).Idx → EReal) (bfc : (⟨3, ![8, 1, 4096]⟩ : Shape).Idx → EReal)
  (wg : (⟨3, ![8, 1024, 4096]⟩ : Shape).Idx → EReal) (bg : (⟨3, ![8, 1, 4096]⟩ : Shape).Idx → EReal)
  (wproj : (⟨3, ![8, 4096, 1024]⟩ : Shape).Idx → EReal) (bproj : (⟨3, ![8, 1, 1024]⟩ : Shape).Idx → EReal)

/-- A pre-activation: row `(e,t)` of `x` against column `k` of the weight, plus the bias of that column. -/
def pre (w : (⟨3, ![8, 1024, 4096]⟩ : Shape).Idx → EReal) (b : (⟨3, ![8, 1, 4096]⟩ : Shape).Idx → EReal)
    (e : Fin 8) (t : Fin 2048) (k : Fin 4096) : EReal :=
  (∑ i : Fin 1024, x (ix3 e t i) * w (ix3 e i k)) + b (ix3 e (0 : Fin 1) k)

/-- The gated hidden value `h · (g · σ(g))`. -/
def hidden (e : Fin 8) (t : Fin 2048) (k : Fin 4096) : EReal :=
  pre x wfc bfc e t k * (pre x wg bg e t k * Ideal.logistic (pre x wg bg e t k))

/-- One hidden unit's contribution to output `(e,t,o)`. -/
def term (e : Fin 8) (t : Fin 2048) (o : Fin 1024) (k : Fin 4096) : EReal :=
  hidden x wfc bfc wg bg e t k * wproj (ix3 e k o)

/-- The layer's output, index by index. -/
def out : (⟨3, ![8, 2048, 1024]⟩ : Shape).Idx → EReal := fun i =>
  (∑ k : Fin 4096, term x wfc bfc wg bg wproj (i 0) (i 1) (i 2) k) + bproj (ix3 (i 0) (0 : Fin 1) (i 2))

/-- The sum over all hidden units is the sum over the four blocks of each block's sum. -/
theorem sum_hidden_blocks (f : Fin 4096 → EReal) :
    ∑ k : Fin 4096, f k = ∑ s ∈ Finset.range 4, ∑ j : Fin 1024, f (hid s j) := by
  have e1 : ∑ k : Fin 4096, f k = ∑ p : Fin 4 × Fin 1024, f (finProdFinEquiv p) :=
    (Equiv.sum_comp (finProdFinEquiv : Fin 4 × Fin 1024 ≃ Fin 4096) f).symm
  rw [e1, Fintype.sum_prod_type, ← Fin.sum_univ_eq_sum_range (fun s => ∑ j : Fin 1024, f (hid s j)) 4]
  refine Finset.sum_congr rfl fun a _ => Finset.sum_congr rfl fun j _ => congrArg f (Fin.ext ?_)
  show j.val + 1024 * a.val = (a.val % 4) * 1024 + j.val
  rw [Nat.mod_eq_of_lt a.isLt]; omega

end Cert.Swiglu

end
-- ==== Proof.KernelBlocks.lean ====
/-
  Which entries of the argument arrays a grid point's staged blocks hold.

  Point `t` of the 8 × 4 × 4 grid works for expert `t / 16`, token tile `(t / 4) % 4` (512 tokens) and hidden block `t % 4`
  (1024 hidden units). A window's block coordinate along an axis is always block index × block extent + the coordinate
  inside the block. The four arrays narrowed to the 16-bit format before the call hold, on the extended reals, exactly the
  arguments' entries. With these, a point's block partial sum is the sum of the specified terms over its hidden block.
-/
import proofs.«159279_j4887672783477_1_alg».proof.Proof.Gen.KernelIdeal.Frame
import proofs.«159279_j4887672783477_1_alg».proof.Proof.KernelStep
import proofs.«159279_j4887672783477_1_alg».proof.Proof.Spec
import Idealize.ShloMosaic.Lib.StableHlo.Run

set_option maxRecDepth 16384

noncomputable section

open Idealize.ShloMosaic Idealize.ShloMosaic.TcCoe Idealize.SL.Sem
open Idealize.ShloMosaic.Pipeline (Dat)

namespace Cert.Swiglu.Blocks

open Cert.KernelIdeal Cert.KernelIdeal.Gen Idealize.ShloMosaic.ValueIdx Cert.Swiglu

variable (m : (ℓ : Loc nD τ sig) → Buf (Elt Ideal) ℓ)

/-- The expert a point works for. -/
def eOf (t : Fin cfg0.N) : Fin 8 := ⟨t.val / 16, by have := t.isLt; have : cfg0.N = 128 := N_0; omega⟩

/-! ## The block indices, decided over the grid -/

theorem idx0 : ∀ t : Fin cfg0.N, win0_0.index t (0 : Fin 3) = t.val / 16 ∧ win0_0.index t (1 : Fin 3) = t.val / 4 % 4 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = t.val % 4 :=
  (by decide +kernel : ∀ t : Fin grid0.N, _)
theorem idx2 : ∀ t : Fin cfg0.N, win0_2.index t (0 : Fin 3) = t.val / 16 ∧ win0_2.index t (1 : Fin 3) = 0 ∧ win0_2.index t (2 : Fin 3) = t.val % 4 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = t.val % 4 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = t.val % 4 :=
  (by decide +kernel : ∀ t : Fin grid0.N, _)
theorem idx5 : ∀ t : Fin cfg0.N, win0_5.index t (0 : Fin 3) = t.val / 16 ∧ win0_5.index t (1 : Fin 3) = t.val % 4 ∧ win0_5.index t (2 : Fin 3) = 0 :=
  (by decide +kernel : ∀ t : Fin grid0.N, _)
theorem idx6 : ∀ t : Fin cfg0.N, win0_6.index t (0 : Fin 3) = t.val / 16 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val / 16 ∧ win0_7.index t (1 : Fin 3) = t.val / 4 % 4 ∧ win0_7.index t (2 : Fin 3) = 0 :=
  (by decide +kernel : ∀ t : Fin grid0.N, _)

/-! ## The arrays the region finds -/

abbrev X (c : Dev nD) : S8x2048x1024.Idx → EReal := m ((c : Thread nD τ).loc main_arg0)
abbrev WFC (c : Dev nD) : S8x1024x4096.Idx → EReal := m ((c : Thread nD τ).loc main_arg1)
abbrev BFC (c : Dev nD) : S8x1x4096.Idx → EReal := m ((c : Thread nD τ).loc main_arg2)
abbrev WG (c : Dev nD) : S8x1024x4096.Idx → EReal := m ((c : Thread nD τ).loc main_arg3)
abbrev BG (c : Dev nD) : S8x1x4096.Idx → EReal := m ((c : Thread nD τ).loc main_arg4)
abbrev WP (c : Dev nD) : S8x4096x1024.Idx → EReal := m ((c : Thread nD τ).loc main_arg5)
abbrev BP (c : Dev nD) : S8x1x1024.Idx → EReal := m ((c : Thread nD τ).loc main_arg6)

/-- The narrowed copies hold the arguments' entries (narrowing is the identity on the extended reals). -/
theorem V_v0 (c : Dev nD) : (V m c main_v0 : S8x2048x1024.Idx → EReal) = X m c := by
  dsimp only [V, hostOps0]; after_results; rfl
theorem V_v1 (c : Dev nD) : (V m c main_v1 : S8x1024x4096.Idx → EReal) = WFC m c := by
  dsimp only [V, hostOps0]; after_results; rfl
theorem V_v2 (c : Dev nD) : (V m c main_v2 : S8x1024x4096.Idx → EReal) = WG m c := by
  dsimp only [V, hostOps0]; after_results; rfl
theorem V_v3 (c : Dev nD) : (V m c main_v3 : S8x4096x1024.Idx → EReal) = WP m c := by
  dsimp only [V, hostOps0]; after_results; rfl

/-! ## The staged blocks, entry by entry -/

/-- The token tile: row `r` of the tile is token `tile · 512 + r` of the point's expert. -/
theorem x_read (c : Dev nD) (t : Fin cfg0.N) (r : Fin 512) (i : Fin 1024) :
    (iblk m c 0 t : FVec Ideal S1x512x1024 .bf16) (ix3 (0 : Fin 1) r i) = X m c (ix3 (eOf t) (tok (t.val / 4) r) i) := by
  obtain ⟨h0, h1, h2⟩ := idx0 t
  unfold iblk
  rw [View.read_apply]
  show (V m c main_v0 : S8x2048x1024.Idx → EReal) _ = _
  rw [V_v0]
  refine congrArg (X m c) (funext fun a => Fin.ext ?_)
  match a with
  | ⟨0, _⟩ => show win0_0.index t (0 : Fin 3) * 1 + 1 * 0 = t.val / 16; omega
  | ⟨1, _⟩ => show win0_0.index t (1 : Fin 3) * 512 + 1 * r.val = t.val / 4 % 4 * 512 + r.val; omega
  | ⟨2, _⟩ => show win0_0.index t (2 : Fin 3) * 1024 + 1 * i.val = i.val; omega

/-- The first weight's block: column `j` of the block is hidden unit `block · 1024 + j`. -/
theorem wfc_read (c : Dev nD) (t : Fin cfg0.N) (i : Fin 1024) (j : Fin 1024) :
    (iblk m c 1 t : FVec Ideal S1x1024x1024 .bf16) (ix3 (0 : Fin 1) i j) = WFC m c (ix3 (eOf t) i (hid t.val j)) := by
  obtain ⟨h0, h1, h2⟩ := idx1 t
  unfold iblk
  rw [View.read_apply]
  show (V m c main_v1 : S8x1024x4096.Idx → EReal) _ = _
  rw [V_v1]
  refine congrArg (WFC m c) (funext fun a => Fin.ext ?_)
  match a with
  | ⟨0, _⟩ => show win0_1.index t (0 : Fin 3) * 1 + 1 * 0 = t.val / 16; omega
  | ⟨1, _⟩ => show win0_1.index t (1 : Fin 3) * 1024 + 1 * i.val = i.val; omega
  | ⟨2, _⟩ => show win0_1.index t (2 : Fin 3) * 1024 + 1 * j.val = t.val % 4 * 1024 + j.val; omega

/-- The first bias's block. -/
theorem bfc_read (c : Dev nD) (t : Fin cfg0.N) (j : Fin 1024) :
    (iblk m c 2 t : FVec Ideal S1x1x1024 .f32) (ix3 (0 : Fin 1) (0 : Fin 1) j) = BFC m c (ix3 (eOf t) (0 : Fin 1) (hid t.val j)) := by
  obtain ⟨h0, h1, h2⟩ := idx2 t
  unfold iblk
  rw [View.read_apply]
  show (V m c main_arg2 : S8x1x4096.Idx → EReal) _ = _
  rw [V_main_arg2]
  refine congrArg (BFC m c) (funext fun a => Fin.ext ?_)
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 1024 + 1 * j.val = t.val % 4 * 1024 + j.val; omega

/-- The gate weight's block. -/
theorem wg_read (c : Dev nD) (t : Fin cfg0.N) (i : Fin 1024) (j : Fin 1024) :
    (iblk m c 3 t : FVec Ideal S1x1024x1024 .bf16) (ix3 (0 : Fin 1) i j) = WG m c (ix3 (eOf t) i (hid t.val j)) := by
  obtain ⟨h0, h1, h2⟩ := idx3 t
  unfold iblk
  rw [View.read_apply]
  show (V m c main_v2 : S8x1024x4096.Idx → EReal) _ = _
  rw [V_v2]
  refine congrArg (WG m c) (funext fun a => Fin.ext ?_)
  match a with
  | ⟨0, _⟩ => show win0_3.index t (0 : Fin 3) * 1 + 1 * 0 = t.val / 16; omega
  | ⟨1, _⟩ => show win0_3.index t (1 : Fin 3) * 1024 + 1 * i.val = i.val; omega
  | ⟨2, _⟩ => show win0_3.index t (2 : Fin 3) * 1024 + 1 * j.val = t.val % 4 * 1024 + j.val; omega

/-- The gate bias's block. -/
theorem bg_read (c : Dev nD) (t : Fin cfg0.N) (j : Fin 1024) :
    (iblk m c 4 t : FVec Ideal S1x1x1024 .f32) (ix3 (0 : Fin 1) (0 : Fin 1) j) = BG m c (ix3 (eOf t) (0 : Fin 1) (hid t.val j)) := by
  obtain ⟨h0, h1, h2⟩ := idx4 t
  unfold iblk
  rw [View.read_apply]
  show (V m c main_arg4 : S8x1x4096.Idx → EReal) _ = _
  rw [V_main_arg4]
  refine congrArg (BG m c) (funext fun a => Fin.ext ?_)
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 1024 + 1 * j.val = t.val % 4 * 1024 + j.val; omega

/-- The output weight's block: row `j` of the block is hidden unit `block · 1024 + j`. -/
theorem wp_read (c : Dev nD) (t : Fin cfg0.N) (j : Fin 1024) (o : Fin 1024) :
    (iblk m c 5 t : FVec Ideal S1x1024x1024 .bf16) (ix3 (0 : Fin 1) j o) = WP m c (ix3 (eOf t) (hid t.val j) o) := by
  obtain ⟨h0, h1, h2⟩ := idx5 t
  unfold iblk
  rw [View.read_apply]
  show (V m c main_v3 : S8x4096x1024.Idx → EReal) _ = _
  rw [V_v3]
  refine congrArg (WP m c) (funext fun a => Fin.ext ?_)
  match a with
  | ⟨0, _⟩ => show win0_5.index t (0 : Fin 3) * 1 + 1 * 0 = t.val / 16; omega
  | ⟨1, _⟩ => show win0_5.index t (1 : Fin 3) * 1024 + 1 * j.val = t.val % 4 * 1024 + j.val; omega
  | ⟨2, _⟩ => show win0_5.index t (2 : Fin 3) * 1024 + 1 * o.val = o.val; omega

/-- The output bias row of the point's expert. -/
theorem bp_read (c : Dev nD) (t : Fin cfg0.N) (o : Fin 1024) :
    (iblk m c 6 t : FVec Ideal S1x1x1024 .f32) (ix3 (0 : Fin 1) (0 : Fin 1) o) = BP m c (ix3 (eOf t) (0 : Fin 1) o) := by
  obtain ⟨h0, h1, h2⟩ := idx6 t
  unfold iblk
  rw [View.read_apply]
  show (V m c main_arg6 : S8x1x1024.Idx → EReal) _ = _
  rw [V_main_arg6]
  refine congrArg (BP m c) (funext fun a => Fin.ext ?_)
  match a with
  | ⟨0, _⟩ => show win0_6.index t (0 : Fin 3) * 1 + 1 * 0 = t.val / 16; omega
  | ⟨1, _⟩ => show win0_6.index t (1 : Fin 3) * 1 + 1 * 0 = 0; omega
  | ⟨2, _⟩ => show win0_6.index t (2 : Fin 3) * 1024 + 1 * o.val = o.val; omega

/-! ## A point's block partial sum, over the arguments -/

/-- The block partial of the blocks staged at point `t`: the specified terms of token `(t, r)` and output `o`, summed over
    the hidden units of the point's block. -/
theorem part_eq (c : Dev nD) (t : Fin cfg0.N) (r : Fin 512) (o : Fin 1024) :
    Body.bpart (iblk m c 0 t) (iblk m c 1 t) (iblk m c 3 t) (iblk m c 5 t) (iblk m c 2 t) (iblk m c 4 t) r o
      = ∑ j : Fin 1024, term (X m c) (WFC m c) (BFC m c) (WG m c) (BG m c) (WP m c) (eOf t) (tok (t.val / 4) r) o (hid t.val j) := by
  unfold Body.bpart Body.bhidden Body.bpre term hidden pre
  simp only [x_read, wfc_read, bfc_read, wg_read, bg_read, wp_read]

end Cert.Swiglu.Blocks
end
-- ==== Proof.KernelValue.lean ====
/-
  The kernel's result array is the specified layer output.

  The output tile of (expert, token tile) is written back once, at the run's last point `4q + 3`. There the body stores
  the final accumulator plus the output bias; the accumulator is zero plus the four block partials in order; each partial
  is the specified terms summed over its hidden block; and the four blocks together are all 4096 hidden units. The 32
  written tiles of 512 tokens cover every expert's 2048 tokens.
-/
import proofs.«159279_j4887672783477_1_alg».proof.Proof.Gen.KernelIdeal.Value
import proofs.«159279_j4887672783477_1_alg».proof.Proof.KernelAcc
import proofs.«159279_j4887672783477_1_alg».proof.Proof.KernelBlocks

set_option maxRecDepth 16384

noncomputable section

open Idealize.ShloMosaic Idealize.ShloMosaic.TcCoe Idealize.SL.Sem
open Idealize.ShloMosaic.Pipeline (Dat)

namespace Cert.Swiglu.KValue

open Cert.KernelIdeal Cert.KernelIdeal.Gen Idealize.ShloMosaic.ValueIdx Cert.Swiglu Cert.Swiglu.Blocks

variable (m : (ℓ : Loc nD τ sig) → Buf (Elt Ideal) ℓ) (ρ : Dev nD → PrngReg)

/-- The specified output over the arguments as launched. -/
abbrev result (c : Dev nD) : S8x2048x1024.Idx → EReal :=
  out (X m c) (WFC m c) (BFC m c) (WG m c) (BG m c) (WP m c) (BP m c)

/-- At a run's last point the output tile is the accumulator just stored plus the output bias row. -/
theorem last_store (c : Dev nD) (t : Fin cfg0.N) (h0 : ¬t.val % 4 = 0) (h1 : t.val % 4 = 3) :
    (outsAt0 m c t.val t.isLt).1 = k0_pay2 ((outsAt0 m c t.val t.isLt).2) (iblk m c 6 t) := by
  rw [outsAt0_C m c t h0 h1]
  dsimp only
  rw [Pieces.out_C, Pieces.scratch_C]

/-- Entry `(r, o)` of the tile written at a run's last point is the specified output of that token and output index. -/
theorem tile_at (c : Dev nD) (t : Fin cfg0.N) (h1 : t.val % 4 = 3) (u : Fin 1) (r : Fin 512) (o : Fin 1024) :
    (outsAt0 m c t.val t.isLt).1 (ix3 u r o) = result m c (ix3 (eOf t) (tok (t.val / 4) r) o) := by
  have hN : cfg0.N = 128 := N_0
  have hlt := t.isLt
  have h0 : ¬t.val % 4 = 0 := by omega
  rw [last_store m c t h0 h1]
  refine (Body.store_apply _ _ u r o).trans ?_
  rw [Acc.acc_eq m c t (ix2 r o), h1, bp_read, zero_add]
  show _ = (∑ k : Fin 4096, term (X m c) (WFC m c) (BFC m c) (WG m c) (BG m c) (WP m c) (eOf t) (tok (t.val / 4) r) o k)
      + BP m c (ix3 (eOf t) (0 : Fin 1) o)
  rw [sum_hidden_blocks]
  refine congrArg (· + BP m c (ix3 (eOf t) (0 : Fin 1) o)) ?_
  refine Finset.sum_congr rfl fun s hs => ?_
  have hs4 : s < 4 := Finset.mem_range.mp hs
  have hn : 4 * (t.val / 4) + s < cfg0.N := by omega
  unfold Acc.part
  rw [dif_pos hn]
  refine (part_eq m c ⟨4 * (t.val / 4) + s, hn⟩ r o).trans ?_
  have e1 : eOf ⟨4 * (t.val / 4) + s, hn⟩ = eOf t := Fin.ext (by show (4 * (t.val / 4) + s) / 16 = t.val / 16; omega)
  have e2 : tok ((4 * (t.val / 4) + s) / 4) r = tok (t.val / 4) r :=
    Fin.ext (by show (4 * (t.val / 4) + s) / 4 % 4 * 512 + r.val = t.val / 4 % 4 * 512 + r.val; omega)
  have e3 : ∀ j : Fin 1024, hid (4 * (t.val / 4) + s) j = hid s j := fun j =>
    Fin.ext (by show (4 * (t.val / 4) + s) % 4 * 1024 + j.val = s % 4 * 1024 + j.val; omega)
  show ∑ j : Fin 1024, term (X m c) (WFC m c) (BFC m c) (WG m c) (BG m c) (WP m c) (eOf ⟨4 * (t.val / 4) + s, hn⟩)
      (tok ((4 * (t.val / 4) + s) / 4) r) o (hid (4 * (t.val / 4) + s) j) = _
  simp only [e1, e2, e3]

/-- What a flushing point writes back is its block of the specified output. -/
theorem flushed_eq (c : Dev nD) (t : Fin cfg0.N) (hf : (cfg0.win 7).flush t = true) :
    (dats m 0 c).flushed 7 t = ((cfg0.win 7).blk t).view.read (Elt Ideal) (result m c) := by
  have h1 : t.val % 4 = 3 := (flush0_7 t).mp hf
  obtain ⟨i0, i1, i2⟩ := idx7 t
  rw [Cert.KernelIdeal.Value.flushed7 m c t]
  refine funext fun (y : S1x512x1024.Idx) => ?_
  show (outsAt0 m c t.val t.isLt).1 y = result m c (((cfg0.win 7).blk t).view.emb y)
  refine (congrArg _ (eq_ix3 y)).trans ((tile_at m c t h1 (y 0) (y 1) (y 2)).trans ?_)
  refine congrArg (result m c) (funext fun a => Fin.ext ?_)
  have hy0 : (y 0).val < 1 := (y 0).isLt
  match a with
  | ⟨0, _⟩ => show t.val / 16 = win0_7.index t (0 : Fin 3) * 1 + 1 * (y 0).val; omega
  | ⟨1, _⟩ => show t.val / 4 % 4 * 512 + (y 1).val = win0_7.index t (1 : Fin 3) * 512 + 1 * (y 1).val; omega
  | ⟨2, _⟩ => show (y 2).val = win0_7.index t (2 : Fin 3) * 1024 + 1 * (y 2).val; omega

/-- An index of the result array lies in point `t`'s block iff each coordinate lies in the block's range on its axis. -/
theorem mem_blk (t : Fin cfg0.N) (i : S8x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v4).slice (win0_7.rect t)).set ↔ _
  rw [View.set_slice_whole, Rect.mem_set_unit]
  exact Iff.rfl

/-- Every index of the result array lies in the tile some run's last point writes back. -/
theorem cover (i : S8x2048x1024.Idx) :
    ∃ t : Fin cfg0.N, (cfg0.win 7).flush t = true ∧ i ∈ ((cfg0.win 7).blk t).view.set := by
  have hN : cfg0.N = 128 := N_0
  have b0 : (i 0).val < 8 := (i 0).isLt
  have b1 : (i 1).val < 2048 := (i 1).isLt
  have b2 : (i 2).val < 1024 := (i 2).isLt
  have ht : (i 0).val * 16 + (i 1).val / 512 * 4 + 3 < cfg0.N := by omega
  obtain ⟨i0, i1, i2⟩ := idx7 ⟨(i 0).val * 16 + (i 1).val / 512 * 4 + 3, ht⟩
  refine ⟨⟨(i 0).val * 16 + (i 1).val / 512 * 4 + 3, ht⟩, (flush0_7 _).mpr (by show ((i 0).val * 16 + (i 1).val / 512 * 4 + 3) % 4 = 3; omega), ?_⟩
  rw [mem_blk]
  intro a
  match a with
  | ⟨0, _⟩ =>
    show win0_7.index ⟨(i 0).val * 16 + (i 1).val / 512 * 4 + 3, ht⟩ (0 : Fin 3) * 1 ≤ (i 0).val
      ∧ (i 0).val < win0_7.index ⟨(i 0).val * 16 + (i 1).val / 512 * 4 + 3, ht⟩ (0 : Fin 3) * 1 + 1
    rw [i0]; show ((i 0).val * 16 + (i 1).val / 512 * 4 + 3) / 16 * 1 ≤ _ ∧ _ < ((i 0).val * 16 + (i 1).val / 512 * 4 + 3) / 16 * 1 + 1; omega
  | ⟨1, _⟩ =>
    show win0_7.index ⟨(i 0).val * 16 + (i 1).val / 512 * 4 + 3, ht⟩ (1 : Fin 3) * 512 ≤ (i 1).val
      ∧ (i 1).val < win0_7.index ⟨(i 0).val * 16 + (i 1).val / 512 * 4 + 3, ht⟩ (1 : Fin 3) * 512 + 512
    rw [i1]; show ((i 0).val * 16 + (i 1).val / 512 * 4 + 3) / 4 % 4 * 512 ≤ _ ∧ _ < ((i 0).val * 16 + (i 1).val / 512 * 4 + 3) / 4 % 4 * 512 + 512; omega
  | ⟨2, _⟩ =>
    show win0_7.index ⟨(i 0).val * 16 + (i 1).val / 512 * 4 + 3, ht⟩ (2 : Fin 3) * 1024 ≤ (i 2).val
      ∧ (i 2).val < win0_7.index ⟨(i 0).val * 16 + (i 1).val / 512 * 4 + 3, ht⟩ (2 : Fin 3) * 1024 + 1024
    rw [i2]; omega

/-- After the run the result array holds the specified output. -/
theorem final (c : Dev nD) : (dats m 0 c).arrAt 7 cfg0.N = result m c :=
  (dats m 0 c).arrAt_eq_of_cover 7 (result m c) (flushed_eq m c) cover

/-- The kernel's run: it terminates with the result array at the specified output and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Swiglu.KValue
end
-- ==== Proof.RefSpec.lean ====
/-
  The reference computes the layer's output as specified: read one operation at a time at an index, its two
  batched products are the row-against-column sums, its expansion `1 / (1 + exp (-g))` is the logistic function,
  and its last product sums over all 4096 hidden units.
-/
import proofs.«159279_j4887672783477_1_alg».proof.Proof.Gen.ReferenceIdeal.Read
import proofs.«159279_j4887672783477_1_alg».proof.Proof.Spec

set_option maxRecDepth 16384

noncomputable section

open Idealize.ShloMosaic Idealize.ShloMosaic.TcCoe Idealize.SL.Sem
open Idealize.ShloMosaic.Pipeline (Dat)

namespace Cert.Swiglu.Ref

open Cert.ReferenceIdeal Cert.ReferenceIdeal.Read Idealize.ShloMosaic.ValueIdx

variable (x : (⟨S8x2048x1024, .f32⟩ : BufTy).Contents (Elt Ideal)) (wfc : (⟨S8x1024x4096, .f32⟩ : BufTy).Contents (Elt Ideal))
  (bfc : (⟨S8x1x4096, .f32⟩ : BufTy).Contents (Elt Ideal)) (wg : (⟨S8x1024x4096, .f32⟩ : BufTy).Contents (Elt Ideal))
  (bg : (⟨S8x1x4096, .f32⟩ : BufTy).Contents (Elt Ideal)) (wproj : (⟨S8x4096x1024, .f32⟩ : BufTy).Contents (Elt Ideal))
  (bproj : (⟨S8x1x1024, .f32⟩ : BufTy).Contents (Elt Ideal))

/-- A pre-activation stage (a batched product plus its broadcast bias) at hidden index `(e,t,k)`. -/
theorem pre_fc (j : S8x2048x4096.Idx) :
    val_main_v2 (F := Ideal) x wfc bfc j = Cert.Swiglu.pre x wfc bfc (j 0) (j 1) (j 2) := by
  rw [val_main_v2_apply, val_main_v0_apply, val_main_v1_apply]
  unfold Cert.Swiglu.pre
  have el : ∀ k : Fin 1024, lidx_main_v0 j k = ix3 (j 0) (j 1) k := fun k => funext fun a => by
    match a with | ⟨0, _⟩ => rfl | ⟨1, _⟩ => rfl | ⟨2, _⟩ => rfl
  have er : ∀ k : Fin 1024, ridx_main_v0 j k = ix3 (j 0) k (j 2) := fun k => funext fun a => by
    match a with | ⟨0, _⟩ => rfl | ⟨1, _⟩ => rfl | ⟨2, _⟩ => rfl
  have eb : idx_main_v1 j = ix3 (j 0) (0 : Fin 1) (j 2) := funext fun a => by
    match a with | ⟨0, _⟩ => rfl | ⟨1, _⟩ => rfl | ⟨2, _⟩ => rfl
  simp only [el, er, eb, Ideal.addf_def]
  rfl

theorem pre_gate (j : S8x2048x4096.Idx) :
    val_main_v5 (F := Ideal) x wg bg j = Cert.Swiglu.pre x wg bg (j 0) (j 1) (j 2) := by
  rw [val_main_v5_apply, val_main_v3_apply, val_main_v4_apply]
  unfold Cert.Swiglu.pre
  have el : ∀ k : Fin 1024, lidx_main_v3 j k = ix3 (j 0) (j 1) k := fun k => funext fun a => by
    match a with | ⟨0, _⟩ => rfl | ⟨1, _⟩ => rfl | ⟨2, _⟩ => rfl
  have er : ∀ k : Fin 1024, ridx_main_v3 j k = ix3 (j 0) k (j 2) := fun k => funext fun a => by
    match a with | ⟨0, _⟩ => rfl | ⟨1, _⟩ => rfl | ⟨2, _⟩ => rfl
  have eb : idx_main_v4 j = ix3 (j 0) (0 : Fin 1) (j 2) := funext fun a => by
    match a with | ⟨0, _⟩ => rfl | ⟨1, _⟩ => rfl | ⟨2, _⟩ => rfl
  simp only [el, er, eb, Ideal.addf_def]
  rfl

/-- The gated hidden value: the reference's `g · (1 / (1 + exp (-g)))` is `g · σ(g)`. -/
theorem hidden_eq (j : S8x2048x4096.Idx) :
    val_main_v7 (F := Ideal) x wfc bfc wg bg j = Cert.Swiglu.hidden x wfc bfc wg bg (j 0) (j 1) (j 2) := by
  rw [val_main_v7_apply, val_main_v6_apply, val_main_call0_v5_apply, val_main_call0_v4_apply, val_main_call0_cst_0_apply,
    val_main_call0_v3_apply, val_main_call0_v2_apply, val_main_call0_cst_apply, val_main_call0_v1_apply,
    val_main_call0_v0_apply, pre_fc, pre_gate]
  unfold Cert.Swiglu.hidden
  simp only [Ideal.mulf_def, Ideal.addf_def, Ideal.hostDivf_def, Ideal.hostUnary_exp_def, Ideal.hostNegf_def, Ideal.negf_def,
    Ideal.ofBits_def, Ideal.ofBits_one_f32, Ideal.logistic]

/-- The reference's result is the specified output. -/
theorem result_eq : val_main_v10 (F := Ideal) x wfc bfc wg bg wproj bproj = Cert.Swiglu.out x wfc bfc wg bg wproj bproj := by
  funext i
  rw [val_main_v10_apply, val_main_v8_apply, val_main_v9_apply]
  unfold Cert.Swiglu.out Cert.Swiglu.term
  have er : ∀ k : Fin 4096, ridx_main_v8 i k = ix3 (i 0) k (i 2) := fun k => funext fun a => by
    match a with | ⟨0, _⟩ => rfl | ⟨1, _⟩ => rfl | ⟨2, _⟩ => rfl
  have eb : idx_main_v9 i = ix3 (i 0) (0 : Fin 1) (i 2) := funext fun a => by
    match a with | ⟨0, _⟩ => rfl | ⟨1, _⟩ => rfl | ⟨2, _⟩ => rfl
  simp only [hidden_eq, er, eb, Ideal.addf_def]
  rfl

end Cert.Swiglu.Ref
end
-- ==== Proof.lean ====
/-
  A per-expert gated feed-forward layer: for each of 8 experts and 2048 tokens,
  `out = (h · (g · σ(g))) · w_proj + b_proj` with `h = x · w_fc + b_fc`, `g = x · w_gate + b_gate` and `σ` the logistic
  function, the hidden axis having 4096 units.

  The kernel narrows `x` and the three weights to the 16-bit format and walks a grid of (expert, token tile of 512, hidden
  block of 1024): at each point it forms the hidden block, multiplies it into the output weight's block and adds the
  product to an accumulator tile that it zeroes at the first hidden block; at the last hidden block it adds the output
  bias and writes the tile out. The reference computes the same three products whole and expands `σ(g)` as
  `1 / (1 + exp (-g))`.

  On the extended reals narrowing is the identity, the logistic function IS that expansion, and a product into a zero
  accumulator is the plain sum; so the kernel's tile entry is `0 + P₀ + P₁ + P₂ + P₃ + b_proj` with `Pₛ` the sum of the
  specified terms over hidden block `s`, and the reference's is the sum over all 4096 hidden units plus `b_proj`. The two
  agree by regrouping a finite sum, which uses only that addition is commutative and associative; no finiteness of the
  inputs is needed, and the precondition is never opened.

  The three frames are the generated ones (the reference's is its run with the result dropped); the idealization rewrote
  nothing, so its conjunct is `True`.
-/
import proofs.«159279_j4887672783477_1_alg».proof.Defs
import proofs.«159279_j4887672783477_1_alg».proof.Proof.Gen.Kernel
import proofs.«159279_j4887672783477_1_alg».proof.Proof.Gen.Kernel.Skeleton
import proofs.«159279_j4887672783477_1_alg».proof.Proof.Gen.Kernel.Launch
import proofs.«159279_j4887672783477_1_alg».proof.Proof.Gen.Kernel.Points
import proofs.«159279_j4887672783477_1_alg».proof.Proof.Gen.Kernel.Frame
import proofs.«159279_j4887672783477_1_alg».proof.Proof.Gen.KernelIdeal
import proofs.«159279_j4887672783477_1_alg».proof.Proof.Gen.KernelIdeal.Skeleton
import proofs.«159279_j4887672783477_1_alg».proof.Proof.Gen.KernelIdeal.Launch
import proofs.«159279_j4887672783477_1_alg».proof.Proof.Gen.KernelIdeal.Points
import proofs.«159279_j4887672783477_1_alg».proof.Proof.Gen.KernelIdeal.Frame
import proofs.«159279_j4887672783477_1_alg».proof.Proof.Gen.ReferenceIdeal
import proofs.«159279_j4887672783477_1_alg».proof.Proof.Gen.Pre_finite_inputs
import proofs.«159279_j4887672783477_1_alg».proof.Proof.Gen.KernelIdeal.Value
import proofs.«159279_j4887672783477_1_alg».proof.Proof.Gen.ReferenceIdeal.Run
import proofs.«159279_j4887672783477_1_alg».proof.Proof.Gen.ReferenceIdeal.Read
import proofs.«159279_j4887672783477_1_alg».proof.Proof.KernelValue
import proofs.«159279_j4887672783477_1_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the specified layer output of the arguments, which agree. -/
theorem algebraic : Cert.algebraic_KernelIdeal_ReferenceIdeal := by
  intro m ρ m' ρ' _ hagree
  refine ⟨fun c => Cert.Swiglu.KValue.result m c, Cert.Swiglu.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v10_eq, Cert.Swiglu.Ref.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
